-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S9216x96x96 : Shape := ⟨3, ![9216, 96, 96]⟩
abbrev S1x256x96x96 : Shape := ⟨4, ![1, 256, 96, 96]⟩
abbrev S_ : Shape := ⟨0, ![]⟩

class Facts : Prop where
  bcast_S_S9216x96x96 : S_.BroadcastsInDim S9216x96x96 (![] : Fin 0 → Fin S9216x96x96.rank)
  reducesTo_S9216x96x96_S_d0_1_2 : S9216x96x96.ReducesTo [0, 1, 2] S_
  h_S_ : 0 < S_.numel
  bcast_S_S1x256x96x96 : S_.BroadcastsInDim S1x256x96x96 (![] : Fin 0 → Fin S1x256x96x96.rank)
  reducesTo_S1x256x96x96_S_d0_1_2_3 : S1x256x96x96.ReducesTo [0, 1, 2, 3] S_

variable [Facts]

def fn {F : FTy → Type} [FloatOps F] (main_arg0 : FVec F S9216x96x96 .f32) (main_arg1 : FVec F S1x256x96x96 .f32) : IVec S_ 1 :=
  let main_v0 : FVec F S9216x96x96 .f32 := Host.absf main_arg0
  let main_cst : FVec F S_ .f32 := constant S_ .f32 0x7F800000#32
  let main_v1 : FVec F S9216x96x96 .f32 := broadcastInDim S9216x96x96 ![] bcast_S_S9216x96x96 main_cst
  let main_v2 : IVec S9216x96x96 1 := cmpf .olt main_v0 main_v1
  let main_c : IVec S_ 1 := constantI S_ 1 1#1
  let main_v3 : IVec S_ 1 := (fun x v => Host.reduce IntOp.andi x v reducesTo_S9216x96x96_S_d0_1_2 h_S_) main_v2 main_c
  let main_v4 : FVec F S1x256x96x96 .f32 := Host.absf main_arg1
  let main_cst_0 : FVec F S_ .f32 := constant S_ .f32 0x7F800000#32
  let main_v5 : FVec F S1x256x96x96 .f32 := broadcastInDim S1x256x96x96 ![] bcast_S_S1x256x96x96 main_cst_0
  let main_v6 : IVec S1x256x96x96 1 := cmpf .olt main_v4 main_v5
  let main_c_1 : IVec S_ 1 := constantI S_ 1 1#1
  let main_v7 : IVec S_ 1 := (fun x v => Host.reduce IntOp.andi x v reducesTo_S1x256x96x96_S_d0_1_2_3 h_S_) main_v6 main_c_1
  let main_v8 : IVec S_ 1 := andi main_v3 main_v7
  main_v8
-- ==== Kernel.lean ====
abbrev S9216x96x96 : Shape := ⟨3, ![9216, 96, 96]⟩
abbrev S1x256x96x96 : Shape := ⟨4, ![1, 256, 96, 96]⟩
abbrev S9216x9216 : Shape := ⟨2, ![9216, 9216]⟩
abbrev S256x9216 : Shape := ⟨2, ![256, 9216]⟩
abbrev S9216x256 : Shape := ⟨2, ![9216, 256]⟩
abbrev S384x9216 : Shape := ⟨2, ![384, 9216]⟩
abbrev S384x256 : Shape := ⟨2, ![384, 256]⟩
abbrev S96x9216 : Shape := ⟨2, ![96, 9216]⟩
abbrev S96x256 : Shape := ⟨2, ![96, 256]⟩
abbrev S9216x1x1x256 : Shape := ⟨4, ![9216, 1, 1, 256]⟩

abbrev nBuf : Space → Nat
  | .hbm => 8
  | .vmem => 5
  | .smem => 0
  | _ => 0

abbrev bufTy : (tb : Table) → Fin (tcTables nBuf tb) → BufTy
  | .hbm, ⟨0, _⟩ => ⟨S9216x96x96, .f32⟩
  | .hbm, ⟨1, _⟩ => ⟨S1x256x96x96, .f32⟩
  | .hbm, ⟨2, _⟩ => ⟨S9216x9216, .f32⟩
  | .hbm, ⟨3, _⟩ => ⟨S256x9216, .f32⟩
  | .hbm, ⟨4, _⟩ => ⟨S9216x256, .f32⟩
  | .hbm, ⟨5, _⟩ => ⟨S9216x256, .bf16⟩
  | .hbm, ⟨6, _⟩ => ⟨S9216x256, .f32⟩
  | .hbm, ⟨7, _⟩ => ⟨S9216x1x1x256, .f32⟩
  | .local _ .vmem, ⟨0, _⟩ => ⟨S384x9216, .f32⟩
  | .local _ .vmem, ⟨1, _⟩ => ⟨S384x9216, .f32⟩
  | .local _ .vmem, ⟨2, _⟩ => ⟨S9216x256, .bf16⟩
  | .local _ .vmem, ⟨3, _⟩ => ⟨S384x256, .f32⟩
  | .local _ .vmem, ⟨4, _⟩ => ⟨S384x256, .f32⟩
  | _, _ => ⟨S9216x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def k0_mult1 : BitVec 32 :=
  let c0_i32 : BitVec 32 := 0#32
  let c96_i32 : BitVec 32 := 96#32
  let v2 : BitVec 32 := Scalar.muli c0_i32 c96_i32
  v2
def k0_off1 (c0_i32 : BitVec 32) : Fin 2 → Nat :=
  let c96_i32 : BitVec 32 := 96#32
  let v2 : BitVec 32 := Scalar.muli c0_i32 c96_i32
  let v3 : BitVec 32 := v2
  let v4 : Index := Scalar.indexCast v3
  let c0_1 : Index := 0#32
  ![v4.toNat, 0]
def k0_off2 (c0_i32 : BitVec 32) : Fin 2 → Nat :=
  let c96_i32 : BitVec 32 := 96#32
  let v2 : BitVec 32 := Scalar.muli c0_i32 c96_i32
  let v3 : BitVec 32 := v2
  let v9 : Index := Scalar.indexCast v3
  let c0_2 : Index := 0#32
  ![v9.toNat, 0]
def k0_mult2 : BitVec 32 :=
  let c1_i32 : BitVec 32 := 1#32
  let c96_i32_3 : BitVec 32 := 96#32
  let v11 : BitVec 32 := Scalar.muli c1_i32 c96_i32_3
  v11
def k0_mult3 : BitVec 32 :=
  let c2_i32 : BitVec 32 := 2#32
  let c96_i32_7 : BitVec 32 := 96#32
  let v20 : BitVec 32 := Scalar.muli c2_i32 c96_i32_7
  v20
def k0_mult4 : BitVec 32 :=
  let c3_i32 : BitVec 32 := 3#32
  let c96_i32_11 : BitVec 32 := 96#32
  let v29 : BitVec 32 := Scalar.muli c3_i32 c96_i32_11
  v29
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9216x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S9216x96x96_S9216x9216 : S9216x96x96.ShapeCasts S9216x9216
  shapeCasts_S1x256x96x96_S256x9216 : S1x256x96x96.ShapeCasts S256x9216
  transposes_S256x9216_S9216x256_1_0 : S256x9216.Transposes [1, 0] S9216x256
  bitsLt_bf16_f32 : FTy.bits .bf16 < FTy.bits .f32
  inb_S9216x256_S9216x256_0_0 : ∀ a, (![0, 0] : Fin 2 → Nat) a + S9216x256.size a ≤ S9216x256.size a
  h_S9216x256 : 0 < S9216x256.numel
  shapeCasts_S9216x256_S9216x256 : S9216x256.ShapeCasts S9216x256
  h_S96x9216 : 0 < S96x9216.numel
  shapeCasts_S96x9216_S96x9216 : S96x9216.ShapeCasts S96x9216
  h_S96x256 : 0 < S96x256.numel
  shapeCasts_S9216x256_S9216x1x1x256 : S9216x256.ShapeCasts S9216x1x1x256
  dot_S96x9216_S9216x256_S96x256_1_0_0_1_n_n_wf : DotDims.WF S96x9216 S9216x256 S96x256 [1] [0] [0] [1] [] []
  hrank0 : 0 < grid0.rank
  k0_mult1_dvd : 96 ∣ k0_mult1.toNat
  k0_off1_inb : ∀ (r : Fin 4), ∀ a, (k0_off1 (BitVec.ofNat 32 r.val)) a + S96x9216.size a ≤ S384x9216.size a
  k0_off2_inb : ∀ (r : Fin 4), ∀ a, (k0_off2 (BitVec.ofNat 32 r.val)) a + S96x256.size a ≤ S384x256.size a
  k0_mult2_dvd : 96 ∣ k0_mult2.toNat
  k0_mult3_dvd : 96 ∣ k0_mult3.toNat
  k0_mult4_dvd : 96 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S384x9216.size a ≤ S9216x9216.size a
  hwx0_0 : ∀ i : grid0.Coords, EltTy.bits .f32 = 32 ∨ (Rect.block (s := S9216x9216) S384x9216.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9216x256.size a ≤ S9216x256.size a
  hwx0_1 : ∀ i : grid0.Coords, EltTy.bits .bf16 = 32 ∨ (Rect.block (s := S9216x256) S9216x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S384x256.size a ≤ S9216x256.size a
  hwx0_2 : ∀ i : grid0.Coords, EltTy.bits .f32 = 32 ∨ (Rect.block (s := S9216x256) S384x256.size (cc0_transform_2 i) (hinb0_2 i)).WholeWords (EltTy.packing .f32)

variable [Facts₀]

def dot_S96x9216_S9216x256_S96x256_1_0_0_1_n_n : DotDims S96x9216 S9216x256 S96x256 where
  lhsContracting := [1]
  rhsContracting := [0]
  lhsNonContracting := [0]
  rhsNonContracting := [1]
  lhsBatch := []
  rhsBatch := []
  wf := dot_S96x9216_S9216x256_S96x256_1_0_0_1_n_n_wf

abbrev win0_0 : Pipeline.Window sig grid0 :=
  Pipeline.Window.ofSpec (Memref.whole main_v0) S384x9216.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S9216x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S384x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S9216x96x96 : Shape := ⟨3, ![9216, 96, 96]⟩
abbrev S1x256x96x96 : Shape := ⟨4, ![1, 256, 96, 96]⟩
abbrev S256x9216 : Shape := ⟨2, ![256, 9216]⟩
abbrev S9216x256 : Shape := ⟨2, ![9216, 256]⟩
abbrev S9216x9216 : Shape := ⟨2, ![9216, 9216]⟩
abbrev S9216x1x1x256 : Shape := ⟨4, ![9216, 1, 1, 256]⟩

abbrev nBuf : Space → Nat
  | .hbm => 7
  | .vmem => 0
  | .smem => 0
  | _ => 0

abbrev bufTy : (tb : Table) → Fin (tcTables nBuf tb) → BufTy
  | .hbm, ⟨0, _⟩ => ⟨S9216x96x96, .f32⟩
  | .hbm, ⟨1, _⟩ => ⟨S1x256x96x96, .f32⟩
  | .hbm, ⟨2, _⟩ => ⟨S256x9216, .f32⟩
  | .hbm, ⟨3, _⟩ => ⟨S9216x256, .f32⟩
  | .hbm, ⟨4, _⟩ => ⟨S9216x9216, .f32⟩
  | .hbm, ⟨5, _⟩ => ⟨S9216x256, .f32⟩
  | .hbm, ⟨6, _⟩ => ⟨S9216x1x1x256, .f32⟩
  | _, _ => ⟨S9216x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]

class Facts₀ : Prop where
  shapeCasts_S1x256x96x96_S256x9216 : S1x256x96x96.ShapeCasts S256x9216
  transposes_S256x9216_S9216x256_1_0 : S256x9216.Transposes [1, 0] S9216x256
  shapeCasts_S9216x96x96_S9216x9216 : S9216x96x96.ShapeCasts S9216x9216
  shapeCasts_S9216x256_S9216x1x1x256 : S9216x256.ShapeCasts S9216x1x1x256
  dot_S9216x9216_S9216x256_S9216x256_1_0_0_1_n_n_wf : DotDims.WF S9216x9216 S9216x256 S9216x256 [1] [0] [0] [1] [] []

variable [Facts₀]

def dot_S9216x9216_S9216x256_S9216x256_1_0_0_1_n_n : DotDims S9216x9216 S9216x256 S9216x256 where
  lhsContracting := [1]
  rhsContracting := [0]
  lhsNonContracting := [0]
  rhsNonContracting := [1]
  lhsBatch := []
  rhsBatch := []
  wf := dot_S9216x9216_S9216x256_S9216x256_1_0_0_1_n_n_wf

class Facts : Prop extends Facts₀ where

variable [Facts]
-- ==== Proof.ChunkProduct.lean ====
/-
  One sub-chunk of the kernel body, read at an index, at the ideal instance.

  Each of the four stores of the body writes a 96 x 256 tile: the matrix product of a 96 x 9216 slab of the weight
  tile (narrowed to bf16, which is the identity on extended reals) with the whole 9216 x 256 feature matrix, into a
  zero accumulator.  Entry (p, q) of that tile is therefore the plain sum over k of slab(p, k) * feats(k, q).
-/
import proofs.«418482_j64707977282011_3_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Product

open Cert.KernelIdeal Cert.KernelIdeal.Gen Idealize.ShloMosaic Idealize.ShloMosaic.TcCoe Idealize.ShloMosaic.ValueIdx

theorem lhs_axis0 (i : S96x256.Idx) (q : dot_S96x9216_S9216x256_S96x256_1_0_0_1_n_n.contr.Idx) :
    (dot_S96x9216_S9216x256_S96x256_1_0_0_1_n_n.lhsIdx i q 0).val = (i 0).val := by
  unfold DotDims.lhsIdx
  rw [dif_neg (show ¬(0 : Fin S96x9216.rank) ∈ dot_S96x9216_S9216x256_S96x256_1_0_0_1_n_n.lhsBatch by decide), dif_pos (show (0 : Fin S96x9216.rank) ∈ dot_S96x9216_S9216x256_S96x256_1_0_0_1_n_n.lhsNonContracting by decide)]
  rfl
theorem lhs_axis1 (i : S96x256.Idx) (q : dot_S96x9216_S9216x256_S96x256_1_0_0_1_n_n.contr.Idx) :
    (dot_S96x9216_S9216x256_S96x256_1_0_0_1_n_n.lhsIdx i q 1).val = (q ⟨0, by decide⟩).val :=
  dot_S96x9216_S9216x256_S96x256_1_0_0_1_n_n.lhsIdx_val_of_single rfl i q
theorem rhs_axis0 (i : S96x256.Idx) (q : dot_S96x9216_S9216x256_S96x256_1_0_0_1_n_n.contr.Idx) :
    (dot_S96x9216_S9216x256_S96x256_1_0_0_1_n_n.rhsIdx i q 0).val = (q ⟨0, by decide⟩).val :=
  dot_S96x9216_S9216x256_S96x256_1_0_0_1_n_n.rhsIdx_val_of_single rfl i q
theorem rhs_axis1 (i : S96x256.Idx) (q : dot_S96x9216_S9216x256_S96x256_1_0_0_1_n_n.contr.Idx) :
    (dot_S96x9216_S9216x256_S96x256_1_0_0_1_n_n.rhsIdx i q 1).val = (i 1).val := by
  unfold DotDims.rhsIdx
  rw [dif_neg (show ¬(1 : Fin S9216x256.rank) ∈ dot_S96x9216_S9216x256_S96x256_1_0_0_1_n_n.rhsBatch by decide), dif_pos (show (1 : Fin S9216x256.rank) ∈ dot_S96x9216_S9216x256_S96x256_1_0_0_1_n_n.rhsNonContracting by decide)]
  rfl

/-- The slab's index the product reads for output entry `i` and contraction position `k`: row of `i`, column `k`. -/
abbrev slabIdx (i : S96x256.Idx) (k : Fin 9216) : S96x9216.Idx := fun a => match a with
  | ⟨0, _⟩ => ⟨(i 0).val, (i 0).isLt⟩
  | ⟨1, _⟩ => ⟨k.val, k.isLt⟩
/-- The feature matrix's index it reads: row `k`, column of `i`. -/
abbrev featIdx (i : S96x256.Idx) (k : Fin 9216) : S9216x256.Idx := fun a => match a with
  | ⟨0, _⟩ => ⟨k.val, k.isLt⟩
  | ⟨1, _⟩ => ⟨(i 1).val, (i 1).isLt⟩

/-- A matmul of the body's shapes into the zero accumulator, at an entry: the sum over the 9216 contracted positions
    of slab entry times feature entry. -/
theorem matmul_zero_apply (lhs : FVec Ideal S96x9216 .bf16) (rhs : FVec Ideal S9216x256 .bf16) (i : S96x256.Idx) :
    matmul dot_S96x9216_S9216x256_S96x256_1_0_0_1_n_n none lhs rhs (constant S96x256 .f32 0x00000000#32) i
      = ∑ k : Fin 9216, lhs (slabIdx i k) * rhs (featIdx i k) := by
  simp only [matmul]
  rw [Ideal.matmul_constant_zero_apply, ← Equiv.sum_comp (ValueIdx.contrEquiv1 dot_S96x9216_S9216x256_S96x256_1_0_0_1_n_n 9216 rfl rfl).symm]
  refine Finset.sum_congr rfl fun k _ => ?_
  have hk := ValueIdx.contrEquiv1_symm_val dot_S96x9216_S9216x256_S96x256_1_0_0_1_n_n 9216 rfl rfl k
  have el : dot_S96x9216_S9216x256_S96x256_1_0_0_1_n_n.lhsIdx i ((ValueIdx.contrEquiv1 dot_S96x9216_S9216x256_S96x256_1_0_0_1_n_n 9216 rfl rfl).symm k) = slabIdx i k := funext fun a => Fin.ext (by
    match a with
    | ⟨0, _⟩ => exact lhs_axis0 _ _
    | ⟨1, _⟩ => exact (lhs_axis1 _ _).trans hk)
  have er : dot_S96x9216_S9216x256_S96x256_1_0_0_1_n_n.rhsIdx i ((ValueIdx.contrEquiv1 dot_S96x9216_S9216x256_S96x256_1_0_0_1_n_n 9216 rfl rfl).symm k) = featIdx i k := funext fun a => Fin.ext (by
    match a with
    | ⟨0, _⟩ => exact (rhs_axis0 _ _).trans hk
    | ⟨1, _⟩ => exact rhs_axis1 _ _)
  rw [el, er]

/-- The first three stores' payload (the three are one term): narrow the loaded slab, multiply by the features. -/
theorem pay3_apply (v0 : Vec Ideal S9216x256 .bf16) (v5 : Vec Ideal S96x9216 .f32) (i : S96x256.Idx) :
    k0_pay3 v0 v5 i = ∑ k : Fin 9216, v5 (slabIdx i k) * v0 (featIdx i k) := by
  unfold k0_pay3 k0_pay2
  rw [shapeCast_self, shapeCast_self, matmul_zero_apply]
  rfl
theorem pay4_apply (v0 : Vec Ideal S9216x256 .bf16) (v5 : Vec Ideal S96x9216 .f32) (i : S96x256.Idx) :
    k0_pay4 v0 v5 i = ∑ k : Fin 9216, v5 (slabIdx i k) * v0 (featIdx i k) := by
  unfold k0_pay4 k0_pay2
  rw [shapeCast_self, shapeCast_self, matmul_zero_apply]
  rfl
theorem pay5_apply (v0 : Vec Ideal S9216x256 .bf16) (v5 : Vec Ideal S96x9216 .f32) (i : S96x256.Idx) :
    k0_pay5 v0 v5 i = ∑ k : Fin 9216, v5 (slabIdx i k) * v0 (featIdx i k) := by
  unfold k0_pay5 k0_pay2
  rw [shapeCast_self, shapeCast_self, matmul_zero_apply]
  rfl
/-- The last store's payload, which the printed body assembles from three named values: the same product. -/
theorem pay1_apply (v0 : Vec Ideal S9216x256 .bf16) (v5 : Vec Ideal S96x9216 .f32) (i : S96x256.Idx) :
    k0_pay1 (k0_pay2 v0) (k0_pay6 v5) (constant S96x256 .f32 0x00000000#32) i = ∑ k : Fin 9216, v5 (slabIdx i k) * v0 (featIdx i k) := by
  unfold k0_pay1 k0_pay2 k0_pay6
  rw [shapeCast_self, shapeCast_self, matmul_zero_apply]
  rfl

end Cert.KernelIdeal.Product

end
-- ==== Proof.TileValue.lean ====
/-
  What the kernel body leaves in its output tile, at the ideal instance.

  The body writes the 384 x 256 output tile as four stacked 96 x 256 tiles; tile r is the product of rows
  96 r .. 96 r + 95 of the 384 x 9216 weight tile with the feature matrix.  All four are restrictions of ONE function
  of the tile index: entry (p, q) is the sum over k of weights(p, k) * feats(k, q).  So the tile as a whole is that
  function, whichever store wrote a given entry.
-/
import proofs.«418482_j64707977282011_3_alg».proof.Proof.ChunkProduct
import proofs.«418482_j64707977282011_3_alg».proof.Proof.Gen.KernelIdeal.Frame
import Idealize.ShloMosaic.Lib.Tactic

set_option maxRecDepth 16384

noncomputable section

namespace Cert.KernelIdeal.Product

open Cert.KernelIdeal Cert.KernelIdeal.Gen Idealize.ShloMosaic Idealize.ShloMosaic.TcCoe Idealize.ShloMosaic.ValueIdx Idealize.SL.Sem

theorem hz : (![0, 0] : Fin 2 → Nat) = fun _ => 0 := funext fun a => by fin_cases a <;> rfl

/-- The weight tile's index read for output-tile entry `y` at contraction position `k`: row of `y`, column `k`. -/
abbrev tileRow (y : S384x256.Idx) (k : Fin 9216) : S384x9216.Idx := fun a => match a with
  | ⟨0, _⟩ => ⟨(y 0).val, (y 0).isLt⟩
  | ⟨1, _⟩ => ⟨k.val, k.isLt⟩
/-- The feature matrix's index read: row `k`, column of `y`. -/
abbrev tileCol (y : S384x256.Idx) (k : Fin 9216) : S9216x256.Idx := fun a => match a with
  | ⟨0, _⟩ => ⟨k.val, k.isLt⟩
  | ⟨1, _⟩ => ⟨(y 1).val, (y 1).isLt⟩

/-- The output tile as one function of the weight tile `x0` and the feature matrix `x1`. -/
def tileProd (x0 : Vec Ideal S384x9216 .f32) (x1 : Vec Ideal S9216x256 .bf16) : Vec Ideal S384x256 .f32 :=
  fun y => ∑ k : Fin 9216, x0 (tileRow y k) * x1 (tileCol y k)

/-- A slab of 96 rows loaded at row offset `o`, multiplied out, is the tile function at the same row offset: row
    `o + p` of the weight tile is row `p` of the slab, and the columns are not moved. -/
theorem slab_sum (x0 : Vec Ideal S384x9216 .f32) (x1 : Vec Ideal S9216x256 .bf16) (o : Nat)
    (inbL : ∀ a, (![o, 0] : Fin 2 → Nat) a + S96x9216.size a ≤ S384x9216.size a)
    (inbS : ∀ a, (![o, 0] : Fin 2 → Nat) a + S96x256.size a ≤ S384x256.size a)
    (inbF : ∀ a, (![0, 0] : Fin 2 → Nat) a + S9216x256.size a ≤ S9216x256.size a) (x : S96x256.Idx) :
    ∑ k : Fin 9216, View.ld x0 (Rect.unit (s := S384x9216) ![o, 0] S96x9216.size inbL) (slabIdx x k)
        * View.ld x1 (Rect.unit (s := S9216x256) ![0, 0] S9216x256.size inbF) (featIdx x k)
      = tileProd x0 x1 ((Rect.unit (s := S384x256) ![o, 0] S96x256.size inbS).emb x) := by
  unfold tileProd
  rw [View.ld_unit_zero hz]
  refine Finset.sum_congr rfl fun k _ => ?_
  have eL : View.ld x0 (Rect.unit (s := S384x9216) ![o, 0] S96x9216.size inbL) (slabIdx x k)
      = x0 (tileRow ((Rect.unit (s := S384x256) ![o, 0] S96x256.size inbS).emb x) k) := by
    show x0 _ = x0 _
    congr 1
    funext a
    apply Fin.ext
    match a with
    | ⟨0, _⟩ => rfl
    | ⟨1, _⟩ => show 0 + 1 * k.val = k.val; omega
  have eR : x1 (featIdx x k) = x1 (tileCol ((Rect.unit (s := S384x256) ![o, 0] S96x256.size inbS).emb x) k) := by
    congr 1
    funext a
    apply Fin.ext
    match a with
    | ⟨0, _⟩ => rfl
    | ⟨1, _⟩ => show (x 1).val = 0 + 1 * (x 1).val; omega
  rw [eL, eR]

/-- The output tile the body leaves: the product of the weight tile with the feature matrix, entry by entry. -/
theorem out_eq (c : Dev nD) (i : grid0.Coords) (a1 : Memref sig .tc .vmem S384x9216 .f32) (h1 : a1.IsWhole)
    (a2 : Memref sig .tc .vmem S9216x256 .bf16) (h2 : a2.IsWhole) (a3 : Memref sig .tc .vmem S384x256 .f32) (h3 : a3.IsWhole)
    (x0 : Vec Ideal S384x9216 .f32) (x1 : Vec Ideal S9216x256 .bf16) :
    out0_A_2 c i a1 h1 a2 h2 a3 h3 x0 x1 = tileProd x0 x1 := by
  unfold out0_A_2
  rw [View.read_writes_eq_canon _ _ _ (cover0_A_2 c i a1 h1 a2 h2 a3 h3 x0 x1)]
  funext y
  refine View.canon_apply_of_pieces (tileProd x0 x1) _ ?_ y (cover0_A_2 c i a1 h1 a2 h2 a3 h3 x0 x1 y)
  unfold kernelRun0_A
  dsimp only
  sl_unfold_words
  intro p hp
  simp only [List.mem_cons, List.mem_nil_iff, or_false] at hp
  rcases hp with rfl | rfl | rfl | rfl
  · intro x
    dsimp only
    rw [pay1_apply]
    simp only [View.readAt_eq_ld, h1.read_unread, h2.read_unread]
    exact slab_sum x0 x1 288 _ _ _ x
  · intro x
    dsimp only
    rw [pay5_apply]
    simp only [View.readAt_eq_ld, h1.read_unread, h2.read_unread]
    exact slab_sum x0 x1 192 _ _ _ x
  · intro x
    dsimp only
    rw [pay4_apply]
    simp only [View.readAt_eq_ld, h1.read_unread, h2.read_unread]
    exact slab_sum x0 x1 96 _ _ _ x
  · intro x
    dsimp only
    rw [pay3_apply]
    simp only [View.readAt_eq_ld, h1.read_unread, h2.read_unread]
    exact slab_sum x0 x1 0 _ _ _ x

end Cert.KernelIdeal.Product

end
-- ==== Proof.ArrayValue.lean ====
/-
  The kernel's result array after the run, at the ideal instance.

  Grid point t stages rows 384 t .. 384 t + 383 of the reshaped weights (all 9216 columns) and the whole feature
  matrix, and writes back rows 384 t .. 384 t + 383 of the output.  Since the tile the body leaves is the product of
  the staged weight rows with the features, what point t writes back is block t of ONE whole-array function: the
  matrix product of the 9216 x 9216 weights with the 9216 x 256 features.  The 24 blocks tile the 9216 rows, so after
  the run the output array is that product.
-/
import proofs.«418482_j64707977282011_3_alg».proof.Proof.TileValue

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weights' index read for output entry `i` at contraction position `k`: row of `i`, column `k`. -/
abbrev prodRow (i : S9216x256.Idx) (k : Fin 9216) : S9216x9216.Idx := fun a => match a with
  | ⟨0, _⟩ => ⟨(i 0).val, (i 0).isLt⟩
  | ⟨1, _⟩ => ⟨k.val, k.isLt⟩
/-- The features' index read: row `k`, column of `i`. -/
abbrev prodCol (i : S9216x256.Idx) (k : Fin 9216) : S9216x256.Idx := fun a => match a with
  | ⟨0, _⟩ => ⟨k.val, k.isLt⟩
  | ⟨1, _⟩ => ⟨(i 1).val, (i 1).isLt⟩

/-- The matrix product of the weights `A` (9216 x 9216) with the features `B` (9216 x 256), entry by entry, over the
    extended reals. -/
def matProd (A : S9216x9216.Idx → EReal) (B : S9216x256.Idx → EReal) : S9216x256.Idx → EReal :=
  fun i => ∑ k : Fin 9216, A (prodRow i k) * B (prodCol i k)

/-- The printed index maps over the 24 grid points: the weight window and the output window move together down the
    rows, one block per point, and neither moves along the columns; the feature window never moves. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- What point `t` writes back is block `t` of the product of the arrays as the region finds them. -/
theorem flushed_eq (c : Dev nD) (t : Fin cfg0.N) :
    (dats m 0 c).flushed 2 t = ((cfg0.win 2).blk t).view.read (Elt Ideal) (matProd (V m c main_v0) (V m c main_v3)) := by
  show (cfg0.win 2).cut (grid0.coords t) ((dats m 0 c).after 2 t) = _
  rw [after0_2]
  unfold outsAt0
  rw [out_eq]
  obtain ⟨e0, e1, e2, e3, e4, e5⟩ := idx_facts t
  funext j
  show tileProd (iblk m c 0 t) (iblk m c 1 t) j = matProd (V m c main_v0) (V m c main_v3) (((cfg0.win 2).blk t).view.emb j)
  unfold tileProd matProd
  refine Finset.sum_congr rfl fun k _ => ?_
  have hA : iblk m c 0 t (tileRow j k) = V m c main_v0 (prodRow (((cfg0.win 2).blk t).view.emb j) k) := by
    show V m c main_v0 (((cfg0.win 0).blk t).view.emb (tileRow j k)) = _
    congr 1
    funext a
    apply Fin.ext
    match a with
    | ⟨0, _⟩ => show win0_0.index t (0 : Fin 2) * 384 + 1 * (j 0).val = win0_2.index t (0 : Fin 2) * 384 + 1 * (j 0).val; omega
    | ⟨1, _⟩ => show win0_0.index t (1 : Fin 2) * 9216 + 1 * k.val = k.val; omega
  have hB : iblk m c 1 t (tileCol j k) = V m c main_v3 (prodCol (((cfg0.win 2).blk t).view.emb j) k) := by
    show V m c main_v3 (((cfg0.win 1).blk t).view.emb (tileCol j k)) = _
    congr 1
    funext a
    apply Fin.ext
    match a with
    | ⟨0, _⟩ => show win0_1.index t (0 : Fin 2) * 9216 + 1 * k.val = k.val; omega
    | ⟨1, _⟩ => show win0_1.index t (1 : Fin 2) * 256 + 1 * (j 1).val = win0_2.index t (1 : Fin 2) * 256 + 1 * (j 1).val; omega
  rw [hA, hB]

/-- An index of the output array is in point `t`'s block iff each coordinate is in the block's range on its axis. -/
theorem mem_blk (t : Fin cfg0.N) (i : S9216x256.Idx) :
    i ∈ ((cfg0.win 2).blk t).view.set ↔ ∀ a : Fin 2, win0_2.index t a * S384x256.size a ≤ (i a).val ∧ (i a).val < win0_2.index t a * S384x256.size a + S384x256.size a := by
  show i ∈ ((View.whole main_v4).slice (win0_2.rect t)).set ↔ _
  rw [View.set_slice_whole, Rect.mem_set_unit]
  exact Iff.rfl

/-- Every entry of the output array is written back by some point: row `r` by point `r / 384`. -/
theorem cover (i : S9216x256.Idx) :
    ∃ t : Fin cfg0.N, (cfg0.win 2).flush t = true ∧ i ∈ ((cfg0.win 2).blk t).view.set := by
  have hi0 : (i 0).val < 9216 := (i 0).isLt
  have hi1 : (i 1).val < 256 := (i 1).isLt
  have hN : cfg0.N = 24 := N_0
  have hlt : (i 0).val / 384 < cfg0.N := by rw [hN]; omega
  obtain ⟨e0, e1, e2, e3, e4, e5⟩ := idx_facts ⟨(i 0).val / 384, hlt⟩
  refine ⟨⟨(i 0).val / 384, hlt⟩, flush0_2 _, ?_⟩
  rw [mem_blk]
  intro a
  match a with
  | ⟨0, _⟩ =>
    show win0_2.index ⟨(i 0).val / 384, hlt⟩ (0 : Fin 2) * 384 ≤ (i 0).val ∧ (i 0).val < win0_2.index ⟨(i 0).val / 384, hlt⟩ (0 : Fin 2) * 384 + 384
    rw [e5]
    show (i 0).val / 384 * 384 ≤ (i 0).val ∧ (i 0).val < (i 0).val / 384 * 384 + 384
    omega
  | ⟨1, _⟩ =>
    show win0_2.index ⟨(i 0).val / 384, hlt⟩ (1 : Fin 2) * 256 ≤ (i 1).val ∧ (i 1).val < win0_2.index ⟨(i 0).val / 384, hlt⟩ (1 : Fin 2) * 256 + 256
    rw [e4]
    omega

/-- So the output array ends holding the product of the weights and the features as the region finds them. -/
theorem final (c : Dev nD) : (dats m 0 c).arrAt 2 cfg0.N = matProd (V m c main_v0) (V m c main_v3) :=
  (dats m 0 c).arrAt_eq_of_cover 2 (matProd (V m c main_v0) (V m c main_v3)) (fun t _ => flushed_eq m c t) cover

end Cert.KernelIdeal.Product

end
-- ==== Proof.KernelRun.lean ====
/-
  The idealized kernel's whole run, read as a value.

  Before the call the host reshapes the weights to 9216 x 9216, and reshapes, transposes and narrows the features to
  a 9216 x 256 bf16 matrix (the narrowing is the identity on extended reals); after the call it reshapes the
  9216 x 256 product to 9216 x 1 x 1 x 256.  So the program's result is that last reshape of the matrix product of
  the reshaped weights with the transposed reshaped features, and the two arguments end unchanged.
-/
import proofs.«418482_j64707977282011_3_alg».proof.Proof.ArrayValue
import Idealize.ShloMosaic.Lib.StableHlo.Run

set_option maxRecDepth 16384

noncomputable section

namespace Cert.KernelIdeal.Product

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The weights as the call finds them: the argument reshaped to a square matrix. -/
theorem weights_eq (c : Dev nD) :
    (V m c main_v0 : S9216x9216.Idx → EReal)
      = shapeCast S9216x9216 (m ((c : Thread nD τ).loc main_arg0)) shapeCasts_S9216x96x96_S9216x9216 := by
  show StableHlo.after hostOps0 (fun b => m (c, b)) (Proc.devRef .tc main_v0) = _
  after_results
  rfl

/-- The features as the call finds them: the argument reshaped to 256 x 9216, transposed, narrowed. -/
theorem feats_eq (c : Dev nD) :
    (V m c main_v3 : S9216x256.Idx → EReal)
      = truncf (F := Ideal) .bf16 (transpose S9216x256 [1, 0] (shapeCast S256x9216 (m ((c : Thread nD τ).loc main_arg1)) shapeCasts_S1x256x96x96_S256x9216) transposes_S256x9216_S9216x256_1_0) bitsLt_bf16_f32 := by
  show StableHlo.after hostOps0 (fun b => m (c, b)) (Proc.devRef .tc main_v3) = _
  after_results
  rfl

/-- The program's result as one function of its two arguments. -/
def result (x0 : S9216x96x96.Idx → EReal) (x1 : S1x256x96x96.Idx → EReal) : S9216x1x1x256.Idx → EReal :=
  shapeCast S9216x1x1x256
    (matProd (shapeCast S9216x9216 x0 shapeCasts_S9216x96x96_S9216x9216)
      (transpose S9216x256 [1, 0] (shapeCast S256x9216 x1 shapeCasts_S1x256x96x96_S256x9216) transposes_S256x9216_S9216x256_1_0))
    shapeCasts_S9216x256_S9216x1x1x256

/-- The host line after the call reshapes the product. -/
theorem tail_eq (c : Dev nD) :
    Pipeline.afterTail₀ cfgs (dats m) 0 (V0 m) [hostOps1] c main_v5
      = result (m ((c : Thread nD τ).loc main_arg0)) (m ((c : Thread nD τ).loc main_arg1)) := by
  unfold Pipeline.afterTail₀
  show StableHlo.after hostOps1 _ (Proc.devRef .tc main_v5) = _
  after_results
  have hW : Pipeline.withArrays (cfgs 0).spec c (V0 m c) (fun w => (dats m 0 c).arrAt w (cfgs 0).N) (Proc.devRef .tc main_v4)
      = matProd (V m c main_v0) (V m c main_v3) :=
    (Pipeline.withArrays_arr spec0 launch0.win.arr_inj c _ _ 2).trans (final m c)
  rw [hW, weights_eq, feats_eq]
  rfl

/-- The run, read: the result at `result` of the two arguments, the arguments unchanged. -/
theorem run : θ_run defs (onTc (τ := τ) (main (F := Ideal))) ⟨m, fun _ => 0, ρ⟩ fun r => ∀ c : Dev nD,
      r.2.mem ((c.tc : Thread nD τ).loc main_v5) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v5 (Pipeline.mem_restRefs_of main_v5 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.Product

end
-- ==== Proof.RefSide.lean ====
/-
  The reference's result is the same function of the arguments as the kernel's.

  The reference reshapes the features to 256 x 9216 and transposes them, reshapes the weights to 9216 x 9216, takes
  their `dot_general` over the shared axis of length 9216, and reshapes to 9216 x 1 x 1 x 256.  At the ideal instance
  the `dot_general` is, entry by entry, the sum over k of weights(i, k) * feats(k, j): the matrix product the kernel's
  tiles assemble.
-/
import proofs.«418482_j64707977282011_3_alg».proof.Proof.KernelRun
import proofs.«418482_j64707977282011_3_alg».proof.Proof.Gen.ReferenceIdeal.Read

noncomputable section

namespace Cert.ReferenceIdeal.RefProduct

open Cert.ReferenceIdeal Cert.ReferenceIdeal.Gen Cert.ReferenceIdeal.Read Idealize.ShloMosaic Idealize.ShloMosaic.TcCoe

/-- The reference's matrix stage is the product of its two operand stages. -/
theorem dot_stage_eq (x0 : (⟨S9216x96x96, .f32⟩ : BufTy).Contents (Elt Ideal)) (x1 : (⟨S1x256x96x96, .f32⟩ : BufTy).Contents (Elt Ideal)) :
    val_main_v3 (F := Ideal) x0 x1
      = Cert.KernelIdeal.Product.matProd (val_main_v2 (F := Ideal) x0) (val_main_v1 (F := Ideal) x1) := by
  funext i
  rw [val_main_v3_apply]
  rfl

/-- The reference's last stage is the kernel's `result` of the same arguments. -/
theorem result_eq (x0 : (⟨S9216x96x96, .f32⟩ : BufTy).Contents (Elt Ideal)) (x1 : (⟨S1x256x96x96, .f32⟩ : BufTy).Contents (Elt Ideal)) :
    val_main_v4 (F := Ideal) x0 x1 = Cert.KernelIdeal.Product.result x0 x1 := by
  unfold val_main_v4
  rw [dot_stage_eq]
  rfl

end Cert.ReferenceIdeal.RefProduct

end
-- ==== Proof.lean ====
/-
  The certificate's claims.

  The kernel computes out = attn @ feats for attn the 9216 x 9216 reshape of the weights and feats the 9216 x 256
  transpose of the reshaped features, in 24 grid points of 384 rows, each point as four 96-row matrix products on
  operands narrowed to bf16.  Over the extended reals the narrowing is the identity and each entry of each product is the
  same finite sum over the 9216 contracted positions that the reference's `dot_general` is, so both programs end at the
  same 9216 x 1 x 1 x 256 array.  No rearrangement of a sum is involved (each entry is one sum on both sides), so the
  inputs' finiteness is not used.

  The three frames: the two kernels' are the generated frame theorems; the reference's is its generated run with the
  result dropped.  The idealization rewrote nothing, so `preserves` is `True`.
-/
import proofs.«418482_j64707977282011_3_alg».proof.Defs
import proofs.«418482_j64707977282011_3_alg».proof.Proof.Gen.Kernel
import proofs.«418482_j64707977282011_3_alg».proof.Proof.Gen.Kernel.Skeleton
import proofs.«418482_j64707977282011_3_alg».proof.Proof.Gen.Kernel.Launch
import proofs.«418482_j64707977282011_3_alg».proof.Proof.Gen.Kernel.Points
import proofs.«418482_j64707977282011_3_alg».proof.Proof.Gen.Kernel.Frame
import proofs.«418482_j64707977282011_3_alg».proof.Proof.Gen.KernelIdeal
import proofs.«418482_j64707977282011_3_alg».proof.Proof.Gen.KernelIdeal.Skeleton
import proofs.«418482_j64707977282011_3_alg».proof.Proof.Gen.KernelIdeal.Launch
import proofs.«418482_j64707977282011_3_alg».proof.Proof.Gen.KernelIdeal.Points
import proofs.«418482_j64707977282011_3_alg».proof.Proof.Gen.KernelIdeal.Frame
import proofs.«418482_j64707977282011_3_alg».proof.Proof.Gen.ReferenceIdeal
import proofs.«418482_j64707977282011_3_alg».proof.Proof.Gen.ReferenceIdeal.Run
import proofs.«418482_j64707977282011_3_alg».proof.Proof.Gen.ReferenceIdeal.Read
import proofs.«418482_j64707977282011_3_alg».proof.Proof.Gen.Pre_finite_inputs
import proofs.«418482_j64707977282011_3_alg».proof.Proof.KernelRun
import proofs.«418482_j64707977282011_3_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with their result at the reshaped matrix product of the reshaped weights with the
    transposed reshaped features, of arguments that agree. -/
theorem algebraic : Cert.algebraic_KernelIdeal_ReferenceIdeal := by
  intro m ρ m' ρ' _ hagree
  refine ⟨fun c => Cert.KernelIdeal.Product.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Product.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v4_eq (F := Ideal) _ _).trans (Cert.ReferenceIdeal.RefProduct.result_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
